-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S128x64 : Shape := ⟨2, ![128, 64]⟩
abbrev S128x64x64 : Shape := ⟨3, ![128, 64, 64]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S128x64x64 : S_.BroadcastsInDim S128x64x64 (![] : Fin 0 → Fin S128x64x64.rank)
  reducesTo_S128x64x64_S_d0_1_2 : S128x64x64.ReducesTo [0, 1, 2] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg1 : IVec S128x64 32) (main_v13 : IVec S_ 1) (main_v15 : IVec S128x64 1) (main_c_5 : IVec S_ 1) : IVec S_ 1 :=
  let main_v16 : IVec S_ 1 := (fun x v => Host.reduce IntOp.andi x v reducesTo_S128x64_S_d0_1 h_S_) main_v15 main_c_5
  let main_v17 : IVec S_ 1 := andi main_v13 main_v16
  let main_c_6 : IVec S_ 32 := constantI S_ 32 1024#32
  let main_v18 : IVec S128x64 32 := broadcastInDim S128x64 ![] bcast_S_S128x64 main_c_6
  let main_v19 : IVec S128x64 1 := cmpi .slt main_arg1 main_v18
  let main_c_7 : IVec S_ 1 := constantI S_ 1 1#1
  let main_v20 : IVec S_ 1 := (fun x v => Host.reduce IntOp.andi x v reducesTo_S128x64_S_d0_1 h_S_) main_v19 main_c_7
  let main_v21 : IVec S_ 1 := andi main_v17 main_v20
  main_v21

def fn {F : FTy → Type} [FloatOps F] (main_arg0 : FVec F S128x1024 .f32) (main_arg1 : IVec S128x64 32) (main_arg2 : FVec F S128x64x64 .f32) (main_arg3 : FVec F S128x64x64 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x64x64 .f32 := Host.absf main_arg2
  let main_cst_0 : FVec F S_ .f32 := constant S_ .f32 0x7F800000#32
  let main_v5 : FVec F S128x64x64 .f32 := broadcastInDim S128x64x64 ![] bcast_S_S128x64x64 main_cst_0
  let main_v6 : IVec S128x64x64 1 := cmpf .olt main_v4 main_v5
  let main_c_1 : IVec S_ 1 := constantI S_ 1 1#1
  let main_v7 : IVec S_ 1 := (fun x v => Host.reduce IntOp.andi x v reducesTo_S128x64x64_S_d0_1_2 h_S_) main_v6 main_c_1
  let main_v8 : IVec S_ 1 := andi main_v3 main_v7
  let main_v9 : FVec F S128x64x64 .f32 := Host.absf main_arg3
  let main_cst_2 : FVec F S_ .f32 := constant S_ .f32 0x7F800000#32
  let main_v10 : FVec F S128x64x64 .f32 := broadcastInDim S128x64x64 ![] bcast_S_S128x64x64 main_cst_2
  let main_v11 : IVec S128x64x64 1 := cmpf .olt main_v9 main_v10
  let main_c_3 : IVec S_ 1 := constantI S_ 1 1#1
  let main_v12 : IVec S_ 1 := (fun x v => Host.reduce IntOp.andi x v reducesTo_S128x64x64_S_d0_1_2 h_S_) main_v11 main_c_3
  let main_v13 : IVec S_ 1 := andi main_v8 main_v12
  let main_c_4 : IVec S_ 32 := constantI S_ 32 0#32
  let main_v14 : IVec S128x64 32 := broadcastInDim S128x64 ![] bcast_S_S128x64 main_c_4
  let main_v15 : IVec S128x64 1 := cmpi .sge main_arg1 main_v14
  let main_c_5 : IVec S_ 1 := constantI S_ 1 1#1
  fn_part1 (F := F) main_arg1 main_v13 main_v15 main_c_5
-- ==== Kernel.lean ====
abbrev S128x1024 : Shape := ⟨2, ![128, 1024]⟩
abbrev S128x64 : Shape := ⟨2, ![128, 64]⟩
abbrev S128x64x64 : Shape := ⟨3, ![128, 64, 64]⟩
abbrev S128x128x64 : Shape := ⟨3, ![128, 128, 64]⟩
abbrev S16x64 : Shape := ⟨2, ![16, 64]⟩
abbrev S16x64x64 : Shape := ⟨3, ![16, 64, 64]⟩
abbrev S128x16x64 : Shape := ⟨3, ![128, 16, 64]⟩
abbrev S16x64x1024 : Shape := ⟨3, ![16, 64, 1024]⟩
abbrev S16x64x1 : Shape := ⟨3, ![16, 64, 1]⟩
abbrev S1024x1024 : Shape := ⟨2, ![1024, 1024]⟩
abbrev S128x16x8 : Shape := ⟨3, ![128, 16, 8]⟩
abbrev S16x8x64 : Shape := ⟨3, ![16, 8, 64]⟩
abbrev S128x16x8x1 : Shape := ⟨4, ![128, 16, 8, 1]⟩
abbrev S1x16x8x64 : Shape := ⟨4, ![1, 16, 8, 64]⟩
abbrev S128x16x8x64 : Shape := ⟨4, ![128, 16, 8, 64]⟩
abbrev S8192x2x64 : Shape := ⟨3, ![8192, 2, 64]⟩

abbrev nBuf : Space → Nat
  | .hbm => 6
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x64, .i32⟩
  | .hbm, ⟨2, _⟩ => ⟨S128x64x64, .f32⟩
  | .hbm, ⟨3, _⟩ => ⟨S128x64x64, .f32⟩
  | .hbm, ⟨4, _⟩ => ⟨S128x128x64, .f32⟩
  | .hbm, ⟨5, _⟩ => ⟨S8192x2x64, .f32⟩
  | .local _ .vmem, ⟨0, _⟩ => ⟨S16x64, .i32⟩
  | .local _ .vmem, ⟨1, _⟩ => ⟨S16x64, .i32⟩
  | .local _ .vmem, ⟨2, _⟩ => ⟨S128x1024, .f32⟩
  | .local _ .vmem, ⟨3, _⟩ => ⟨S16x64x64, .f32⟩
  | .local _ .vmem, ⟨4, _⟩ => ⟨S16x64x64, .f32⟩
  | .local _ .vmem, ⟨5, _⟩ => ⟨S16x64x64, .f32⟩
  | .local _ .vmem, ⟨6, _⟩ => ⟨S16x64x64, .f32⟩
  | .local _ .vmem, ⟨7, _⟩ => ⟨S128x16x64, .f32⟩
  | .local _ .vmem, ⟨8, _⟩ => ⟨S128x16x64, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  iota_S16x64x1024_d2_w32 : S16x64x1024.Iotas .tc 32 [2]
  shapeCasts_S16x64_S16x64x1 : S16x64.ShapeCasts S16x64x1
  broadcasts_S16x64x1_S16x64x1024 : S16x64x1.Broadcasts S16x64x1024
  shapeCasts_S16x64x1024_S1024x1024 : S16x64x1024.ShapeCasts S1024x1024
  shapeCasts_S128x1024_S128x16x64 : S128x1024.ShapeCasts S128x16x64
  slices_S128x16x64_o0_0_0_S128x16x8 : S128x16x64.Slices ![0, 0, 0] S128x16x8
  inb_S16x64x64_S16x8x64_0_0_0 : ∀ a, (![0, 0, 0] : Fin 3 → Nat) a + S16x8x64.size a ≤ S16x64x64.size a
  h_S16x8x64 : 0 < S16x8x64.numel
  shapeCasts_S128x16x8_S128x16x8x1 : S128x16x8.ShapeCasts S128x16x8x1
  shapeCasts_S16x8x64_S1x16x8x64 : S16x8x64.ShapeCasts S1x16x8x64
  broadcasts_S128x16x8x1_S128x16x8x64 : S128x16x8x1.Broadcasts S128x16x8x64
  broadcasts_S1x16x8x64_S128x16x8x64 : S1x16x8x64.Broadcasts S128x16x8x64
  reduces_S128x16x8x64_S128x16x64 : S128x16x8x64.Reduces [2] S128x16x64
  slices_S128x16x64_o0_0_8_S128x16x8 : S128x16x64.Slices ![0, 0, 8] S128x16x8
  inb_S16x64x64_S16x8x64_0_8_0 : ∀ a, (![0, 8, 0] : Fin 3 → Nat) a + S16x8x64.size a ≤ S16x64x64.size a
  slices_S128x16x64_o0_0_16_S128x16x8 : S128x16x64.Slices ![0, 0, 16] S128x16x8
  inb_S16x64x64_S16x8x64_0_16_0 : ∀ a, (![0, 16, 0] : Fin 3 → Nat) a + S16x8x64.size a ≤ S16x64x64.size a
  slices_S128x16x64_o0_0_24_S128x16x8 : S128x16x64.Slices ![0, 0, 24] S128x16x8
  inb_S16x64x64_S16x8x64_0_24_0 : ∀ a, (![0, 24, 0] : Fin 3 → Nat) a + S16x8x64.size a ≤ S16x64x64.size a
  slices_S128x16x64_o0_0_32_S128x16x8 : S128x16x64.Slices ![0, 0, 32] S128x16x8
  inb_S16x64x64_S16x8x64_0_32_0 : ∀ a, (![0, 32, 0] : Fin 3 → Nat) a + S16x8x64.size a ≤ S16x64x64.size a
  slices_S128x16x64_o0_0_40_S128x16x8 : S128x16x64.Slices ![0, 0, 40] S128x16x8
  inb_S16x64x64_S16x8x64_0_40_0 : ∀ a, (![0, 40, 0] : Fin 3 → Nat) a + S16x8x64.size a ≤ S16x64x64.size a
  slices_S128x16x64_o0_0_48_S128x16x8 : S128x16x64.Slices ![0, 0, 48] S128x16x8
  inb_S16x64x64_S16x8x64_0_48_0 : ∀ a, (![0, 48, 0] : Fin 3 → Nat) a + S16x8x64.size a ≤ S16x64x64.size a
  slices_S128x16x64_o0_0_56_S128x16x8 : S128x16x64.Slices ![0, 0, 56] S128x16x8
  inb_S16x64x64_S16x8x64_0_56_0 : ∀ a, (![0, 56, 0] : Fin 3 → Nat) a + S16x8x64.size a ≤ S16x64x64.size a
  inb_S128x16x64_S128x16x64_0_0_0 : ∀ a, (![0, 0, 0] : Fin 3 → Nat) a + S128x16x64.size a ≤ S128x16x64.size a
  h_S128x16x64 : 0 < S128x16x64.numel
  shapeCasts_S128x128x64_S8192x2x64 : S128x128x64.ShapeCasts S8192x2x64
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64.size a ≤ S128x64.size a
  hwx0_0 : ∀ i : grid0.Coords, EltTy.bits .i32 = 32 ∨ (Rect.block (s := S128x64) S16x64.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64x64.size a ≤ S128x64x64.size a
  hwx0_2 : ∀ i : grid0.Coords, EltTy.bits .f32 = 32 ∨ (Rect.block (s := S128x64x64) S16x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x64.size a ≤ S128x64x64.size a
  hwx0_3 : ∀ i : grid0.Coords, EltTy.bits .f32 = 32 ∨ (Rect.block (s := S128x64x64) S16x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x16x64.size a ≤ S128x128x64.size a
  hwx0_4 : ∀ i : grid0.Coords, EltTy.bits .f32 = 32 ∨ (Rect.block (s := S128x128x64) S128x16x64.size (cc0_transform_4 i) (hinb0_4 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg1) S16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x16x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x1024 : Shape := ⟨2, ![128, 1024]⟩
abbrev S128x64 : Shape := ⟨2, ![128, 64]⟩
abbrev S128x64x64 : Shape := ⟨3, ![128, 64, 64]⟩
abbrev S_ : Shape := ⟨0, ![]⟩
abbrev S128x64x1 : Shape := ⟨3, ![128, 64, 1]⟩
abbrev S128x128x64 : Shape := ⟨3, ![128, 128, 64]⟩
abbrev S128x128x64x1 : Shape := ⟨4, ![128, 128, 64, 1]⟩
abbrev S1x128x64x64 : Shape := ⟨4, ![1, 128, 64, 64]⟩
abbrev S128x128x64x64 : Shape := ⟨4, ![128, 128, 64, 64]⟩
abbrev S8192x2x64 : Shape := ⟨3, ![8192, 2, 64]⟩

abbrev nBuf : Space → Nat
  | .hbm => 36
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x64, .i32⟩
  | .hbm, ⟨2, _⟩ => ⟨S128x64x64, .f32⟩
  | .hbm, ⟨3, _⟩ => ⟨S128x64x64, .f32⟩
  | .hbm, ⟨4, _⟩ => ⟨S_, .i32⟩
  | .hbm, ⟨5, _⟩ => ⟨S128x64, .i32⟩
  | .hbm, ⟨6, _⟩ => ⟨S128x64, .i1⟩
  | .hbm, ⟨7, _⟩ => ⟨S_, .i32⟩
  | .hbm, ⟨8, _⟩ => ⟨S128x64, .i32⟩
  | .hbm, ⟨9, _⟩ => ⟨S128x64, .i32⟩
  | .hbm, ⟨10, _⟩ => ⟨S128x64, .i32⟩
  | .hbm, ⟨11, _⟩ => ⟨S128x64x1, .i32⟩
  | .hbm, ⟨12, _⟩ => ⟨S128x128x64, .f32⟩
  | .hbm, ⟨13, _⟩ => ⟨S128x64x64, .f32⟩
  | .hbm, ⟨14, _⟩ => ⟨S128x64x64, .f32⟩
  | .hbm, ⟨15, _⟩ => ⟨S128x128x64x1, .f32⟩
  | .hbm, ⟨16, _⟩ => ⟨S1x128x64x64, .f32⟩
  | .hbm, ⟨17, _⟩ => ⟨S128x128x64x64, .f32⟩
  | .hbm, ⟨18, _⟩ => ⟨S128x128x64x64, .f32⟩
  | .hbm, ⟨19, _⟩ => ⟨S128x128x64x64, .f32⟩
  | .hbm, ⟨20, _⟩ => ⟨S1x128x64x64, .f32⟩
  | .hbm, ⟨21, _⟩ => ⟨S128x128x64x64, .f32⟩
  | .hbm, ⟨22, _⟩ => ⟨S128x128x64x64, .f32⟩
  | .hbm, ⟨23, _⟩ => ⟨S128x128x64x64, .f32⟩
  | .hbm, ⟨24, _⟩ => ⟨S_, .f32⟩
  | .hbm, ⟨25, _⟩ => ⟨S128x128x64x64, .f32⟩
  | .hbm, ⟨26, _⟩ => ⟨S128x128x64x64, .f32⟩
  | .hbm, ⟨27, _⟩ => ⟨S1x128x64x64, .f32⟩
  | .hbm, ⟨28, _⟩ => ⟨S128x128x64x64, .f32⟩
  | .hbm, ⟨29, _⟩ => ⟨S128x128x64x64, .f32⟩
  | .hbm, ⟨30, _⟩ => ⟨S_, .f32⟩
  | .hbm, ⟨31, _⟩ => ⟨S128x128x64x64, .f32⟩
  | .hbm, ⟨32, _⟩ => ⟨S128x128x64x64, .f32⟩
  | .hbm, ⟨33, _⟩ => ⟨S_, .f32⟩
  | .hbm, ⟨34, _⟩ => ⟨S128x128x64, .f32⟩
  | .hbm, ⟨35, _⟩ => ⟨S8192x2x64, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  bcast_S128x128x64_S128x128x64x1_0_1_2 : S128x128x64.BroadcastsInDim S128x128x64x1 (![0, 1, 2] : Fin 3 → Fin S128x128x64x1.rank)
  bcast_S128x64x64_S1x128x64x64_1_2_3 : S128x64x64.BroadcastsInDim S1x128x64x64 (![1, 2, 3] : Fin 3 → Fin S1x128x64x64.rank)
  bcast_S128x128x64x1_S128x128x64x64_0_1_2_3 : S128x128x64x1.BroadcastsInDim S128x128x64x64 (![0, 1, 2, 3] : Fin 4 → Fin S128x128x64x64.rank)
  bcast_S1x128x64x64_S128x128x64x64_0_1_2_3 : S1x128x64x64.BroadcastsInDim S128x128x64x64 (![0, 1, 2, 3] : Fin 4 → Fin S128x128x64x64.rank)
  bcast_S_S128x128x64x64 : S_.BroadcastsInDim S128x128x64x64 (![] : Fin 0 → Fin S128x128x64x64.rank)
  reducesTo_S128x128x64x64_S128x128x64_d2 : S128x128x64x64.ReducesTo [2] S128x128x64
  h_S_ : 0 < S_.numel
  shapeCasts_S128x128x64_S8192x2x64 : S128x128x64.ShapeCasts S8192x2x64
  gather_S128x1024_S128x64x1_S128x128x64_0_1_n_n_1_2_1281_wf : GatherDims.WF S128x1024 S128x64x1 S128x128x64 [0] [1] [] [1] [] 2 ![128, 1]

variable [Facts₀]

def gather_S128x1024_S128x64x1_S128x128x64_0_1_n_n_1_2_1281 : GatherDims S128x1024 S128x64x1 S128x128x64 where
  offsetDims := [0]
  collapsedSliceDims := [1]
  operandBatchingDims := []
  startIndicesBatchingDims := []
  startIndexMap := [1]
  indexVectorDim := 2
  sliceSizes := ![128, 1]
  wf := gather_S128x1024_S128x64x1_S128x128x64_0_1_n_n_1_2_1281_wf

class Facts : Prop extends Facts₀ where

variable [Facts]
-- ==== Proof.KernelGroups.lean ====
/-
  The kernel's output block as eight groups of eight slots.

  One grid point handles 16 regions. Its body first selects, for every batch row and every one of the block's
  16 × 64 (region, slot) pairs, the feature the index word names — as a product of the feature rows with a 0/1
  matrix whose row (region, slot) has its single 1 in the column equal to the index word — and then, for each group
  of 8 consecutive slots, forms the 8 Gaussian log densities, sums them over the group, and adds the group's sum
  onto an accumulator that starts at zero. This module restates the body's one stored value in exactly those words
  (`zval`, `dens`, `chunk`, `total`), at any float instance.
-/
import proofs.«409370_j42176578847363_1_alg».proof.Proof.Gen.KernelIdeal.Frame

noncomputable section

namespace Cert.KernelIdeal.Block

open Cert.KernelIdeal Cert.KernelIdeal.Gen Idealize.ShloMosaic

variable {F : FTy → Type} [FloatOps F]

/-- The standardised residual `(x − mu) · e^(0 − ls)` for 8 slots: features `[128, 16, 8]` against parameters
    `[16, 8, 64]`, as `[128, 16, 8, 64]`. -/
def zval (xs : FVec F S128x16x8 .f32) (mu ls : Vec F S16x8x64 .f32) : FVec F S128x16x8x64 .f32 :=
  mulf (subf (broadcastTo S128x16x8x64 (shapeCast S128x16x8x1 xs shapeCasts_S128x16x8_S128x16x8x1) broadcasts_S128x16x8x1_S128x16x8x64)
          (broadcastTo S128x16x8x64 (shapeCast S1x16x8x64 mu shapeCasts_S16x8x64_S1x16x8x64) broadcasts_S1x16x8x64_S128x16x8x64))
    (broadcastTo S128x16x8x64
      (shapeCast S1x16x8x64 (exp (subf (broadcast S16x8x64 (Scalar.ofBits .f32 0x00000000#32)) ls)) shapeCasts_S16x8x64_S1x16x8x64)
      broadcasts_S1x16x8x64_S128x16x8x64)

/-- `−½ · z² − ls`: the log density short of its last constant. -/
def dens (xs : FVec F S128x16x8 .f32) (mu ls : Vec F S16x8x64 .f32) : FVec F S128x16x8x64 .f32 :=
  subf (mulf (broadcast S128x16x8x64 (Scalar.ofBits .f32 0xBF000000#32)) (mulf (zval xs mu ls) (zval xs mu ls)))
    (broadcastTo S128x16x8x64 (shapeCast S1x16x8x64 ls shapeCasts_S16x8x64_S1x16x8x64) broadcasts_S1x16x8x64_S128x16x8x64)

/-- One group: the 8 log densities summed over the slot axis. -/
def chunk (xs : FVec F S128x16x8 .f32) (mu ls : Vec F S16x8x64 .f32) : FVec F S128x16x64 .f32 :=
  multiReduction .add [2] S128x16x64 (subf (dens xs mu ls) (broadcast S128x16x8x64 (Scalar.ofBits .f32 0x3F6B3F8E#32)))
    0x00000000#32 reduces_S128x16x8x64_S128x16x64 (.inl rfl) rfl

/-- The stored value: the eight groups added one after the other onto zero, group `c` reading slots `8c … 8c+7`
    of the selected features and its own 8-slot blocks of the two parameter arrays. -/
def total (X : Vec F S128x1024 .f32) (I : Vec F S16x64 .i32)
    (m0 l0 m1 l1 m2 l2 m3 l3 m4 l4 m5 l5 m6 l6 m7 l7 : Vec F S16x8x64 .f32) : FVec F S128x16x64 .f32 :=
  (addf (addf (addf (addf (addf (addf (addf (addf (broadcast S128x16x64 (Scalar.ofBits .f32 0x00000000#32))
      (chunk (extractStridedSlice S128x16x8 ![0, 0, 0] (k0_pay1 X I) slices_S128x16x64_o0_0_0_S128x16x8) m0 l0))
      (chunk (extractStridedSlice S128x16x8 ![0, 0, 8] (k0_pay1 X I) slices_S128x16x64_o0_0_8_S128x16x8) m1 l1))
      (chunk (extractStridedSlice S128x16x8 ![0, 0, 16] (k0_pay1 X I) slices_S128x16x64_o0_0_16_S128x16x8) m2 l2))
      (chunk (extractStridedSlice S128x16x8 ![0, 0, 24] (k0_pay1 X I) slices_S128x16x64_o0_0_24_S128x16x8) m3 l3))
      (chunk (extractStridedSlice S128x16x8 ![0, 0, 32] (k0_pay1 X I) slices_S128x16x64_o0_0_32_S128x16x8) m4 l4))
      (chunk (extractStridedSlice S128x16x8 ![0, 0, 40] (k0_pay1 X I) slices_S128x16x64_o0_0_40_S128x16x8) m5 l5))
      (chunk (extractStridedSlice S128x16x8 ![0, 0, 48] (k0_pay1 X I) slices_S128x16x64_o0_0_48_S128x16x8) m6 l6))
      (chunk (extractStridedSlice S128x16x8 ![0, 0, 56] (k0_pay1 X I) slices_S128x16x64_o0_0_56_S128x16x8) m7 l7))

/-- The body's stored value IS that: the printed operations, regrouped. -/
theorem out0_4_eq (x0 : Vec F S16x64 .i32) (x1 : Vec F S128x1024 .f32) (x2 x3 : Vec F S16x64x64 .f32) :
    out0_4 x0 x1 x2 x3 = View.canon [⟨r0_10, total (View.ld x1 r0_0) (View.ld x0 r0_1) (View.ld x2 r0_2) (View.ld x3 r0_2) (View.ld x2 r0_3) (View.ld x3 r0_3) (View.ld x2 r0_4) (View.ld x3 r0_4) (View.ld x2 r0_5) (View.ld x3 r0_5) (View.ld x2 r0_6) (View.ld x3 r0_6) (View.ld x2 r0_7) (View.ld x3 r0_7) (View.ld x2 r0_8) (View.ld x3 r0_8) (View.ld x2 r0_9) (View.ld x3 r0_9)⟩] := rfl

end Cert.KernelIdeal.Block

end
-- ==== Proof.KernelSelect.lean ====
/-
  The kernel's feature selection, read at an index.

  The body multiplies the feature rows `[128, 1024]` with a 0/1 matrix `[1024, 1024]` whose row `64·r + s` (region
  `r` of the block, slot `s`) has a 1 exactly in the column whose number equals the index word `idx[r, s]`, and
  contracts over the columns. On the extended reals a product with 0 is 0 and with 1 is the factor, so where the
  index word is a column number below 1024 the row sum has a single surviving term: the selected feature
  `x[b, idx[r, s]]`. (Where the word names no column every term vanishes and the sum is 0; that case is excluded by
  the range hypothesis here.)
-/
import proofs.«409370_j42176578847363_1_alg».proof.Proof.Gen.KernelIdeal.Frame
import Idealize.ShloMosaic.Lib.Pipeline.Value
import Idealize.ShloMosaic.Lib.ValueIdx
import Idealize.ShloMosaic.Lib.StableHlo.Predicate
import Idealize.ShloMosaic.PureOps.Ideal.Laws

noncomputable section

open scoped BigOperators

namespace Cert.KernelIdeal.Select

open Cert.KernelIdeal Cert.KernelIdeal.Gen Idealize.ShloMosaic Idealize.ShloMosaic.ValueIdx

/-! ## The product's operand indices -/

theorem lhs_dot_0 (j : S128x1024.Idx) (k : dot_S128x1024_S1024x1024_S128x1024_1_1_0_0_n_n.contr.Idx) : (dot_S128x1024_S1024x1024_S128x1024_1_1_0_0_n_n.lhsIdx j k 0).val = (j 0).val := by
  unfold DotDims.lhsIdx
  rw [dif_neg (show ¬(0 : Fin S128x1024.rank) ∈ dot_S128x1024_S1024x1024_S128x1024_1_1_0_0_n_n.lhsBatch by decide),
    dif_pos (show (0 : Fin S128x1024.rank) ∈ dot_S128x1024_S1024x1024_S128x1024_1_1_0_0_n_n.lhsNonContracting by decide)]
  rfl

theorem lhs_dot_1 (j : S128x1024.Idx) (k : dot_S128x1024_S1024x1024_S128x1024_1_1_0_0_n_n.contr.Idx) :
    (dot_S128x1024_S1024x1024_S128x1024_1_1_0_0_n_n.lhsIdx j k 1).val = (k ⟨0, by decide⟩).val :=
  DotDims.lhsIdx_val_of_single dot_S128x1024_S1024x1024_S128x1024_1_1_0_0_n_n (cl := 1) rfl j k

theorem rhs_dot_0 (j : S128x1024.Idx) (k : dot_S128x1024_S1024x1024_S128x1024_1_1_0_0_n_n.contr.Idx) : (dot_S128x1024_S1024x1024_S128x1024_1_1_0_0_n_n.rhsIdx j k 0).val = (j 1).val := by
  unfold DotDims.rhsIdx
  rw [dif_neg (show ¬(0 : Fin S1024x1024.rank) ∈ dot_S128x1024_S1024x1024_S128x1024_1_1_0_0_n_n.rhsBatch by decide),
    dif_pos (show (0 : Fin S1024x1024.rank) ∈ dot_S128x1024_S1024x1024_S128x1024_1_1_0_0_n_n.rhsNonContracting by decide)]
  rfl

theorem rhs_dot_1 (j : S128x1024.Idx) (k : dot_S128x1024_S1024x1024_S128x1024_1_1_0_0_n_n.contr.Idx) :
    (dot_S128x1024_S1024x1024_S128x1024_1_1_0_0_n_n.rhsIdx j k 1).val = (k ⟨0, by decide⟩).val :=
  DotDims.rhsIdx_val_of_single dot_S128x1024_S1024x1024_S128x1024_1_1_0_0_n_n (cr := 1) rfl j k

/-- The product into a zero accumulator, at `(b, n)`: the sum over the 1024 columns of row `b` of the left factor
    times row `n` of the right. -/
theorem dot_apply (L : FVec Ideal S128x1024 .bf16) (R : FVec Ideal S1024x1024 .bf16) (b : Fin 128) (n : Fin 1024) :
    matmul dot_S128x1024_S1024x1024_S128x1024_1_1_0_0_n_n none L R (constant S128x1024 .f32 0x00000000#32) (ix2 b n)
      = ∑ f : Fin 1024, L (ix2 b f) * R (ix2 n f) := by
  refine (Ideal.matmul_constant_zero_apply dot_S128x1024_S1024x1024_S128x1024_1_1_0_0_n_n none L R (ix2 b n)).trans ?_
  rw [← Equiv.sum_comp (contrEquiv1 dot_S128x1024_S1024x1024_S128x1024_1_1_0_0_n_n 1024 rfl rfl).symm]
  refine Finset.sum_congr rfl fun f _ => ?_
  have hk := contrEquiv1_symm_val dot_S128x1024_S1024x1024_S128x1024_1_1_0_0_n_n 1024 rfl rfl f
  congr 2
  · funext a
    refine Fin.ext ?_
    match a with
    | ⟨0, _⟩ => exact lhs_dot_0 _ _
    | ⟨1, _⟩ => exact (lhs_dot_1 _ _).trans hk
  · funext a
    refine Fin.ext ?_
    match a with
    | ⟨0, _⟩ => exact rhs_dot_0 _ _
    | ⟨1, _⟩ => exact (rhs_dot_1 _ _).trans hk

/-! ## A row against a column-indicator -/

/-- The single-precision word of 1.0 is 1. -/
theorem one_f32 : Ideal.ofBits .f32 0x3F800000#32 = 1 := by
  simp [Ideal.ofBits, Ideal.ieee, -EReal.coe_mul]; norm_num

/-- A row of 1024 extended reals against the indicator of the column a word `w < 1024` names: the row's entry
    there. -/
theorem sum_indicator (row : Fin 1024 → EReal) (w : BitVec 32) (hw : w.toNat < 1024) :
    ∑ f : Fin 1024, row f * Scalar.select (IntOp.cmpi .eq (BitVec.ofNat 32 f.val) w)
        (Ideal.ofBits .f32 0x3F800000#32) (Ideal.ofBits .f32 0x00000000#32)
      = row ⟨w.toNat, hw⟩ := by
  rw [Finset.sum_eq_single (⟨w.toNat, hw⟩ : Fin 1024)]
  · have h1 : IntOp.cmpi .eq (BitVec.ofNat 32 w.toNat) w = 1#1 :=
      StableHlo.Predicate.cmpi_eq_iff.mpr (BitVec.eq_of_toNat_eq (by rw [BitVec.toNat_ofNat, Nat.mod_eq_of_lt w.isLt]))
    show row _ * Scalar.select (IntOp.cmpi .eq (BitVec.ofNat 32 w.toNat) w) _ _ = _
    rw [h1, select_one, one_f32, mul_one]
  · intro f _ hne
    have h0 : IntOp.cmpi .eq (BitVec.ofNat 32 f.val) w = 0#1 := eq_zero_of_ne_one fun h => hne (Fin.ext (by
      have e := congrArg BitVec.toNat (StableHlo.Predicate.cmpi_eq_iff.mp h)
      rw [BitVec.toNat_ofNat, Nat.mod_eq_of_lt (by have := f.isLt; omega)] at e
      exact e))
    rw [h0, select_zero, Ideal.ofBits_zero_f32, mul_zero]
  · intro h; exact absurd (Finset.mem_univ _) h

/-! ## The layout steps around the product -/

variable {α : Type}

/-- The product `[128, 1024]` viewed `[128, 16, 64]`: entry `(b, r, s)` is entry `(b, 64·r + s)`. -/
theorem cast_rows (M : S128x1024.Idx → α) (b : Fin 128) (rr : Fin 16) (s : Fin 64) :
    shapeCast S128x16x64 M shapeCasts_S128x1024_S128x16x64 (ix3 b rr s)
      = M (ix2 b ⟨rr.val * 64 + s.val, by have := rr.isLt; have := s.isLt; omega⟩) :=
  shapeCast_apply M _ (ix3 b rr s) (ix2 b ⟨rr.val * 64 + s.val, by have := rr.isLt; have := s.isLt; omega⟩) (by
    rw [Shape.rowMajor_val_two, Shape.rowMajor_val_three]
    show b.val * 1024 + (rr.val * 64 + s.val) = (b.val * 16 + rr.val) * 64 + s.val
    omega)

/-- The indicator `[16, 64, 1024]` viewed `[1024, 1024]`: row `64·r + s` is the row of `(r, s)`. -/
theorem cast_mask (T : S16x64x1024.Idx → α) (rr : Fin 16) (s : Fin 64) (f : Fin 1024) :
    shapeCast S1024x1024 T shapeCasts_S16x64x1024_S1024x1024
        (ix2 (⟨rr.val * 64 + s.val, by have := rr.isLt; have := s.isLt; omega⟩ : Fin 1024) f)
      = T (ix3 rr s f) :=
  shapeCast_apply T _ _ (ix3 rr s f) (by
    rw [Shape.rowMajor_val_two, Shape.rowMajor_val_three]
    show (rr.val * 64 + s.val) * 1024 + f.val = (rr.val * 64 + s.val) * 1024 + f.val
    rfl)

/-- The index words `[16, 64]` given a unit axis and repeated along 1024 columns read, at `(r, s, f)`, the word
    of `(r, s)`. -/
theorem idx_bcast (I : IVec S16x64 32) (rr : Fin 16) (s : Fin 64) (f : Fin 1024) :
    broadcastTo S16x64x1024 (shapeCast S16x64x1 I shapeCasts_S16x64_S16x64x1) broadcasts_S16x64x1_S16x64x1024 (ix3 rr s f)
      = I (ix2 rr s) := by
  refine (broadcastTo_apply _ broadcasts_S16x64x1_S16x64x1024 (ix3 rr s f) (ix3 rr s (0 : Fin 1)) fun a => ?_).trans ?_
  · match a with
    | ⟨0, _⟩ => rfl
    | ⟨1, _⟩ => rfl
    | ⟨2, _⟩ => rfl
  · exact shapeCast_apply I _ (ix3 rr s (0 : Fin 1)) (ix2 rr s) (by
      rw [Shape.rowMajor_val_two, Shape.rowMajor_val_three]
      show rr.val * 64 + s.val = (rr.val * 64 + s.val) * 1 + 0
      omega)

/-! ## The selected feature -/

/-- THE SELECTION READ AT `(b, r, s)`: where the index word of `(r, s)` is a column number below 1024, the
    selected feature is `x[b, idx[r, s]]`. -/
theorem sel_apply (X : FVec Ideal S128x1024 .f32) (I : IVec S16x64 32) (b : Fin 128) (rr : Fin 16) (s : Fin 64)
    (hw : (I (ix2 rr s)).toNat < 1024) :
    k0_pay1 (F := Ideal) X I (ix3 b rr s) = X (ix2 b ⟨(I (ix2 rr s)).toNat, hw⟩) := by
  unfold k0_pay1
  dsimp only
  refine (cast_rows _ b rr s).trans ?_
  refine (dot_apply _ _ b ⟨rr.val * 64 + s.val, by have := rr.isLt; have := s.isLt; omega⟩).trans ?_
  refine (Finset.sum_congr rfl fun f _ => ?_).trans (sum_indicator (fun f => X (ix2 b f)) (I (ix2 rr s)) hw)
  refine congrArg (X (ix2 b f) * ·) ?_
  refine (cast_mask _ rr s f).trans ?_
  show Scalar.select (IntOp.cmpi .eq (iota .tc S16x64x1024 32 [2] iota_S16x64x1024_d2_w32 (ix3 rr s f))
      (broadcastTo S16x64x1024 (shapeCast S16x64x1 I shapeCasts_S16x64_S16x64x1) broadcasts_S16x64x1_S16x64x1024 (ix3 rr s f)))
    (Ideal.ofBits .f32 0x3F800000#32) (Ideal.ofBits .f32 0x00000000#32) = _
  rw [iota_single_apply, idx_bcast]

end Cert.KernelIdeal.Select

end
-- ==== Proof.LibGatherColsGrid.lean ====
/-
  A column gather by a GRID of index words (`x[:, idx]` with `idx` a rank-2 integer array), read at an index.

  Table `[C, N]`, start indices `[R, S, 1]`, result `[C, R, S]`: result element `(k, r, s)` is the table's
  `(k, n)`, where `n` is the index word `idx[r, s, 0]` read as a signed integer and clamped into `[0, N - 1]`
  (a negative number reads as column 0, one past the end as the last column).
  Beside it, three facts about signed 32-bit words: a word whose signed reading lies in `[0, n)` is the word of its
  own unsigned value, that value is below `n`, and the clamp leaves it alone.
-/
import Idealize.ShloMosaic.PureOps
import Idealize.ShloMosaic.Lib.ValueIdx
import Idealize.ShloMosaic.Lib.StableHlo.Predicate

noncomputable section

namespace Idealize.ShloMosaic.ColGatherGrid

open Idealize.ShloMosaic Idealize.ShloMosaic.ValueIdx

variable {α : Type}

/-- Gather of whole columns at a grid of indices: table `[C, N]`, indices `[R, S, 1]`, result `[C, R, S]`. -/
abbrev colGridDims (C N R S : Nat)
    (wf : GatherDims.WF ⟨2, ![C, N]⟩ ⟨3, ![R, S, 1]⟩ ⟨3, ![C, R, S]⟩ [0] [1] [] [1] [] 2 ![C, 1]) :
    GatherDims ⟨2, ![C, N]⟩ ⟨3, ![R, S, 1]⟩ ⟨3, ![C, R, S]⟩ where
  offsetDims := [0]
  collapsedSliceDims := [1]
  operandBatchingDims := []
  startIndicesBatchingDims := []
  startIndexMap := [1]
  indexVectorDim := 2
  sliceSizes := ![C, 1]
  wf := wf

/-- The column an index word names: read signed, clamped into `[0, N - 1]`. -/
def clampCol (N : Nat) (hN : 0 < N) {w : Nat} (i : BitVec w) : Fin N :=
  ⟨min i.toInt.toNat (N - 1), by omega⟩

/-- THE COLUMN GATHER READ AT `(k, r, s)`. -/
theorem gather_colGrid_apply {C N R S w : Nat} (hN : 0 < N)
    (wf : GatherDims.WF ⟨2, ![C, N]⟩ ⟨3, ![R, S, 1]⟩ ⟨3, ![C, R, S]⟩ [0] [1] [] [1] [] 2 ![C, 1])
    (x : (⟨2, ![C, N]⟩ : Shape).Idx → α) (idx : IVec ⟨3, ![R, S, 1]⟩ w) (k : Fin C) (r : Fin R) (s : Fin S) :
    Host.gather (colGridDims C N R S wf) x idx (ix3 k r s)
      = x (ix2 k (clampCol N hN (idx (ix3 r s (0 : Fin 1))))) := by
  unfold Host.gather
  congr 1
  funext a
  refine Fin.ext ?_
  match a with
  | ⟨0, _⟩ =>
    show (colGridDims C N R S wf).start (ix3 k r s) idx 0 + (colGridDims C N R S wf).batchCoord (ix3 k r s) 0
      + (colGridDims C N R S wf).offCoord (ix3 k r s) 0 = _
    rw [GatherDims.batchCoord_eq_zero _ _ _ List.not_mem_nil]
    unfold GatherDims.start
    rw [dif_neg (show (0 : Fin 2) ∉ (colGridDims C N R S wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colGridDims C N R S wf).start (ix3 k r s) idx 1 + (colGridDims C N R S wf).batchCoord (ix3 k r s) 1
      + (colGridDims C N R S wf).offCoord (ix3 k r s) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGridDims C N R S wf).startIndexMap from List.mem_singleton.mpr rfl)]
    have hsi : (colGridDims C N R S wf).siIdx (ix3 k r s) ⟨List.idxOf (1 : Fin 2) (colGridDims C N R S wf).startIndexMap,
        List.idxOf_lt_length_iff.2 (List.mem_singleton.mpr rfl)⟩ = ix3 r s (0 : Fin 1) := by
      funext b; refine Fin.ext ?_
      match b with
      | ⟨0, _⟩ => rfl
      | ⟨1, _⟩ => rfl
      | ⟨2, _⟩ => rfl
    rw [hsi]
    rfl

/-! ## Signed words in a range -/

/-- A 32-bit word that tests non-negative and below `n` (signed, `n` small) has its unsigned value below `n`,
    and its signed reading is that value. -/
theorem toNat_of_range (v : BitVec 32) (n : Nat) (hn : n < 2 ^ 31)
    (h0 : IntOp.cmpi .sge v 0#32 = 1#1) (h1 : IntOp.cmpi .slt v (BitVec.ofNat 32 n) = 1#1) :
    v.toNat < n ∧ v.toInt = (v.toNat : Int) := by
  have e0 : (0#32 : BitVec 32).sle v = true := by
    have : BitVec.ofBool ((0#32 : BitVec 32).sle v) = 1#1 := h0
    cases h : (0#32 : BitVec 32).sle v
    · rw [h] at this; exact absurd this (by decide)
    · rfl
  have e1 : v.slt (BitVec.ofNat 32 n) = true := by
    have : BitVec.ofBool (v.slt (BitVec.ofNat 32 n)) = 1#1 := h1
    cases h : v.slt (BitVec.ofNat 32 n)
    · rw [h] at this; exact absurd this (by decide)
    · rfl
  rw [BitVec.sle_iff_toInt_le] at e0
  rw [BitVec.slt_iff_toInt_lt] at e1
  have hz : (0#32 : BitVec 32).toInt = 0 := by decide
  have hnn : (BitVec.ofNat 32 n).toInt = (n : Int) := StableHlo.Predicate.toInt_ofNat_small n hn
  rw [hz] at e0
  rw [hnn] at e1
  have hv := v.isLt
  have hti : v.toInt = (v.toNat : Int) := by
    unfold BitVec.toInt at e0 ⊢
    split
    · rfl
    · rename_i hge
      rw [if_neg hge] at e0
      omega
  refine ⟨?_, hti⟩
  rw [hti] at e1
  exact_mod_cast e1

/-- Such a word is not negative, so the index wrap `i < 0 ? i + n : i` leaves it alone. -/
theorem wrap_of_range (v add : BitVec 32) (h0 : IntOp.cmpi .sge v 0#32 = 1#1) :
    Scalar.select (IntOp.cmpi .slt v 0#32) (IntOp.addi v add) v = v := by
  have e0 : (0#32 : BitVec 32).sle v = true := by
    have : BitVec.ofBool ((0#32 : BitVec 32).sle v) = 1#1 := h0
    cases h : (0#32 : BitVec 32).sle v
    · rw [h] at this; exact absurd this (by decide)
    · rfl
  have hs : v.slt 0#32 = false := by
    rw [BitVec.sle_iff_toInt_le] at e0
    rw [BitVec.slt_eq_decide]
    exact decide_eq_false (by omega)
  show (if BitVec.ofBool (v.slt 0#32) = 1 then v + add else v) = v
  rw [hs]; rfl

/-- The clamp of a word in `[0, N)` is the word's own value. -/
theorem clampCol_of_range (N : Nat) (hN : 0 < N) (v : BitVec 32) (hlt : v.toNat < N) (hti : v.toInt = (v.toNat : Int)) :
    clampCol N hN v = ⟨v.toNat, hlt⟩ := by
  refine Fin.ext ?_
  show min v.toInt.toNat (N - 1) = v.toNat
  rw [hti, Int.toNat_natCast]
  omega

end Idealize.ShloMosaic.ColGatherGrid

end
-- ==== Proof.Spec.lean ====
/-
  The function both programs compute, as one formula over the argument arrays.

  Inputs: features `x : [128, 1024]` (batch × feature), a table of feature indices `idx : [128, 64]` (region × slot),
  Gaussian means `mu` and log standard deviations `ls`, both `[128, 64, 64]` (region × slot × distribution).
  For batch row `b`, region `r` and distribution `d` the result is the sum over the region's 64 slots `s` of the
  Gaussian log density of the selected feature,
      −½ · ((x[b, idx[r,s]] − mu[r,s,d]) · e^(−ls[r,s,d]))² − ls[r,s,d] − ½·log 2π,
  where the selected column is the index word wrapped (a negative word has 1024 added) and then clamped into
  [0, 1023], as array indexing on the host does. Everything is read on the extended reals.

  Two facts about finite sums sit beside the formula: a sum over 64 slots is the sum over 8 groups of 8 consecutive
  slots, and eight groups accumulated one after the other from zero are their sum.
-/
import Idealize.ShloMosaic.PureOps.Ideal
import Idealize.ShloMosaic.Lib.ValueIdx
import proofs.«409370_j42176578847363_1_alg».proof.Proof.LibGatherColsGrid

noncomputable section

open scoped BigOperators

namespace Cert.Spec

open Idealize.ShloMosaic Idealize.ShloMosaic.ValueIdx Idealize.ShloMosaic.ColGatherGrid

/-- The arrays' shapes. -/
abbrev SX : Shape := ⟨2, ![128, 1024]⟩
abbrev SI : Shape := ⟨2, ![128, 64]⟩
abbrev SP : Shape := ⟨3, ![128, 64, 64]⟩
abbrev SO : Shape := ⟨3, ![128, 128, 64]⟩

/-- One slot's Gaussian log density at a feature value `xv`, mean `mv` and log standard deviation `lv`; the two
    constants are the single-precision words of −½ and of ½·log 2π, the same words in both programs. -/
def term (xv mv lv : EReal) : EReal :=
  Ideal.ofBits .f32 0xBF000000#32 * (((xv - mv) * Ideal.exp (-lv)) * ((xv - mv) * Ideal.exp (-lv))) - lv
    - Ideal.ofBits .f32 0x3F6B3F8E#32

/-- The index wrap of array indexing: a negative word has the axis length added. -/
def wrapWord (v : BitVec 32) : BitVec 32 :=
  Scalar.select (IntOp.cmpi .slt v 0#32) (IntOp.addi v 1024#32) v

/-- The feature column that slot `s` of region `r` selects. -/
def col (idx : IVec SI 32) (r : Fin 128) (s : Fin 64) : Fin 1024 :=
  clampCol 1024 (by decide) (wrapWord (idx (ix2 r s)))

/-- The result at batch row `b`, region `r`, distribution `d`. -/
def Gat (x : SX.Idx → EReal) (idx : IVec SI 32) (mu ls : SP.Idx → EReal) (b : Fin 128) (r : Fin 128) (d : Fin 64) : EReal :=
  ∑ s : Fin 64, term (x (ix2 b (col idx r s))) (mu (ix3 r s d)) (ls (ix3 r s d))

/-- The result as an array `[128, 128, 64]`. -/
def G (x : SX.Idx → EReal) (idx : IVec SI 32) (mu ls : SP.Idx → EReal) : SO.Idx → EReal :=
  fun j => Gat x idx mu ls (j 0) (j 1) (j 2)

theorem G_ix3 (x : SX.Idx → EReal) (idx : IVec SI 32) (mu ls : SP.Idx → EReal) (b : Fin 128) (r : Fin 128) (d : Fin 64) :
    G x idx mu ls (ix3 b r d) = Gat x idx mu ls b r d := rfl

/-- Every index word tests non-negative and below 1024 (signed): the table names feature columns. -/
def InRange (idx : IVec SI 32) : Prop :=
  ∀ (r : Fin 128) (s : Fin 64),
    IntOp.cmpi .sge (idx (ix2 r s)) 0#32 = 1#1 ∧ IntOp.cmpi .slt (idx (ix2 r s)) (BitVec.ofNat 32 1024) = 1#1

/-- A word in `[0, 1024)` selects its own column. -/
theorem col_of_range (idx : IVec SI 32) (r : Fin 128) (s : Fin 64)
    (h0 : IntOp.cmpi .sge (idx (ix2 r s)) 0#32 = 1#1) (h1 : IntOp.cmpi .slt (idx (ix2 r s)) (BitVec.ofNat 32 1024) = 1#1) :
    ∃ hlt : (idx (ix2 r s)).toNat < 1024, col idx r s = ⟨(idx (ix2 r s)).toNat, hlt⟩ := by
  obtain ⟨hlt, hti⟩ := toNat_of_range (idx (ix2 r s)) 1024 (by decide) h0 h1
  refine ⟨hlt, ?_⟩
  unfold col wrapWord
  rw [wrap_of_range _ _ h0]
  exact clampCol_of_range 1024 (by decide) _ hlt hti

/-! ## Sums -/

/-- A sum over 64 consecutive slots is the sum over 8 groups of 8. -/
theorem sum_64_as_8x8 {M : Type*} [AddCommMonoid M] (f : Fin 64 → M) :
    ∑ s : Fin 64, f s = ∑ c : Fin 8, ∑ k : Fin 8, f ⟨8 * c.val + k.val, by omega⟩ := by
  rw [← Fintype.sum_prod_type']
  refine (Fintype.sum_equiv (finProdFinEquiv (m := 8) (n := 8)) (fun x : Fin 8 × Fin 8 => f ⟨8 * x.1.val + x.2.val, by omega⟩) f
    (fun x => ?_)).symm
  refine congrArg f (Fin.ext ?_)
  show 8 * x.1.val + x.2.val = x.2.val + 8 * x.1.val
  omega

/-- Eight groups added one after the other onto zero are their sum. -/
theorem acc8 {M : Type*} [AddCommMonoid M] (g : Fin 8 → M) :
    0 + g 0 + g 1 + g 2 + g 3 + g 4 + g 5 + g 6 + g 7 = ∑ c : Fin 8, g c := by
  rw [Fin.sum_univ_eight, zero_add]

end Cert.Spec

end
-- ==== Proof.KernelAtIndex.lean ====
/-
  The kernel's output block, read at an index.

  With the feature selection read (`sel_apply`), each group of 8 slots contributes, at batch row `b`, block region
  `r` and distribution `d`, the sum over its 8 slots of the Gaussian log density `term` of the selected feature and
  the slot's mean and log standard deviation; the block's entry is the eight group sums added onto zero, which is
  the sum over all 64 slots.
-/
import proofs.«409370_j42176578847363_1_alg».proof.Proof.KernelGroups
import proofs.«409370_j42176578847363_1_alg».proof.Proof.KernelSelect
import proofs.«409370_j42176578847363_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Spec

variable {α : Type}

/-! ## The layout steps inside a group -/

/-- Features `[128, 16, 8]` given a trailing unit axis and repeated along 64 distributions read, at `(b, r, k, d)`,
    the feature of `(b, r, k)`. -/
theorem feat_bcast (xs : S128x16x8.Idx → α) (b : Fin 128) (rr : Fin 16) (k : Fin 8) (d : Fin 64) :
    broadcastTo S128x16x8x64 (shapeCast S128x16x8x1 xs shapeCasts_S128x16x8_S128x16x8x1) broadcasts_S128x16x8x1_S128x16x8x64
      (ix4 b rr k d) = xs (ix3 b rr k) := by
  refine (broadcastTo_apply _ broadcasts_S128x16x8x1_S128x16x8x64 (ix4 b rr k d) (ix4 b rr k (0 : Fin 1)) fun a => ?_).trans ?_
  · match a with
    | ⟨0, _⟩ => rfl
    | ⟨1, _⟩ => rfl
    | ⟨2, _⟩ => rfl
    | ⟨3, _⟩ => rfl
  · exact shapeCast_apply xs _ (ix4 b rr k (0 : Fin 1)) (ix3 b rr k) (by
      rw [Shape.rowMajor_val_three, Shape.rowMajor_val_four]
      show (b.val * 16 + rr.val) * 8 + k.val = ((b.val * 16 + rr.val) * 8 + k.val) * 1 + 0
      omega)

/-- Parameters `[16, 8, 64]` given a leading unit axis and repeated along 128 batch rows read, at `(b, r, k, d)`,
    the parameter of `(r, k, d)`. -/
theorem par_bcast (p : S16x8x64.Idx → α) (b : Fin 128) (rr : Fin 16) (k : Fin 8) (d : Fin 64) :
    broadcastTo S128x16x8x64 (shapeCast S1x16x8x64 p shapeCasts_S16x8x64_S1x16x8x64) broadcasts_S1x16x8x64_S128x16x8x64
      (ix4 b rr k d) = p (ix3 rr k d) := by
  refine (broadcastTo_apply _ broadcasts_S1x16x8x64_S128x16x8x64 (ix4 b rr k d) (ix4 (0 : Fin 1) rr k d) fun a => ?_).trans ?_
  · match a with
    | ⟨0, _⟩ => rfl
    | ⟨1, _⟩ => rfl
    | ⟨2, _⟩ => rfl
    | ⟨3, _⟩ => rfl
  · exact shapeCast_apply p _ (ix4 (0 : Fin 1) rr k d) (ix3 rr k d) (by
      rw [Shape.rowMajor_val_three, Shape.rowMajor_val_four]
      show (rr.val * 8 + k.val) * 64 + d.val = (((0 : Fin 1).val * 16 + rr.val) * 8 + k.val) * 64 + d.val
      simp)

/-! ## One group at an index -/

/-- The standardised residual at `(b, r, k, d)`. -/
theorem zval_apply (xs : FVec Ideal S128x16x8 .f32) (mu ls : FVec Ideal S16x8x64 .f32)
    (b : Fin 128) (rr : Fin 16) (k : Fin 8) (d : Fin 64) :
    zval (F := Ideal) xs mu ls (ix4 b rr k d) = (xs (ix3 b rr k) - mu (ix3 rr k d)) * Ideal.exp (-(ls (ix3 rr k d))) := by
  unfold zval
  show (broadcastTo S128x16x8x64 (shapeCast S128x16x8x1 xs shapeCasts_S128x16x8_S128x16x8x1) broadcasts_S128x16x8x1_S128x16x8x64 (ix4 b rr k d)
      - broadcastTo S128x16x8x64 (shapeCast S1x16x8x64 mu shapeCasts_S16x8x64_S1x16x8x64) broadcasts_S1x16x8x64_S128x16x8x64 (ix4 b rr k d))
    * broadcastTo S128x16x8x64 (shapeCast S1x16x8x64 (fun i => Ideal.exp (Ideal.ofBits .f32 0x00000000#32 - ls i)) shapeCasts_S16x8x64_S1x16x8x64)
        broadcasts_S1x16x8x64_S128x16x8x64 (ix4 b rr k d) = _
  rw [feat_bcast, par_bcast, par_bcast, Ideal.ofBits_zero_f32, zero_sub]

/-- One group's sum at `(b, r, d)`: the 8 slots' log densities. -/
theorem chunk_apply (xs : FVec Ideal S128x16x8 .f32) (mu ls : FVec Ideal S16x8x64 .f32)
    (b : Fin 128) (rr : Fin 16) (d : Fin 64) :
    chunk (F := Ideal) xs mu ls (ix3 b rr d) = ∑ k : Fin 8, term (xs (ix3 b rr k)) (mu (ix3 rr k d)) (ls (ix3 rr k d)) := by
  unfold chunk
  refine (Ideal.multiReduction_add_single _ _ reduces_S128x16x8x64_S128x16x64 _ _ (ix3 b rr d)).trans ?_
  refine Finset.sum_congr rfl fun (k : Fin 8) _ => ?_
  have hl : reduces_S128x16x8x64_S128x16x64.lift (ix3 b rr d) k = ix4 b rr k d := by
    funext a
    refine Fin.ext ?_
    match a with
    | ⟨0, _⟩ => rfl
    | ⟨1, _⟩ => rfl
    | ⟨2, _⟩ => rfl
    | ⟨3, _⟩ => rfl
  rw [hl]
  show Ideal.ofBits .f32 0xBF000000#32 * (zval (F := Ideal) xs mu ls (ix4 b rr k d) * zval (F := Ideal) xs mu ls (ix4 b rr k d))
      - broadcastTo S128x16x8x64 (shapeCast S1x16x8x64 ls shapeCasts_S16x8x64_S1x16x8x64) broadcasts_S1x16x8x64_S128x16x8x64 (ix4 b rr k d)
      - Ideal.ofBits .f32 0x3F6B3F8E#32 = _
  rw [zval_apply, par_bcast]
  rfl

/-! ## A group's operands -/

/-- A cut of 8 slots from `o` of the selected features reads slot `o + k`. -/
theorem slots_apply (V : S128x16x64.Idx → α) (o : Nat) (hS : S128x16x64.Slices ![0, 0, o] S128x16x8)
    (b : Fin 128) (rr : Fin 16) (k : Fin 8) (s : Fin 64) (hs : s.val = o + k.val) :
    extractStridedSlice S128x16x8 ![0, 0, o] V hS (ix3 b rr k) = V (ix3 b rr s) :=
  extractStridedSlice_apply _ _ _ _ _ (fun ax => by
    match ax with
    | ⟨0, _⟩ => exact (Nat.zero_add _).symm
    | ⟨1, _⟩ => exact (Nat.zero_add _).symm
    | ⟨2, _⟩ => exact hs)

/-- A load of 8 slots from `o` of a parameter block reads slot `o + k`. -/
theorem par_ld {F : FTy → Type} {e : EltTy} (p : Vec F S16x64x64 e) (o : Nat) (inb : ∀ a, (![0, o, 0] : Fin 3 → Nat) a + S16x8x64.size a ≤ S16x64x64.size a)
    (rr : Fin 16) (k : Fin 8) (d : Fin 64) (s : Fin 64) (hs : s.val = o + k.val) :
    View.ld p (Rect.unit (s := S16x64x64) ![0, o, 0] S16x8x64.size inb) (ix3 rr k d) = p (ix3 rr s d) := by
  show p ((Rect.unit (s := S16x64x64) ![0, o, 0] S16x8x64.size inb).idx (ix3 rr k d)) = _
  refine congrArg p (funext fun a => Fin.ext ?_)
  match a with
  | ⟨0, _⟩ => show 0 + 1 * rr.val = rr.val; omega
  | ⟨1, _⟩ => show o + 1 * k.val = s.val; omega
  | ⟨2, _⟩ => show 0 + 1 * d.val = d.val; omega

/-- Group `c` (slots `8c … 8c+7`) of the block at `(b, r, d)`. -/
theorem group_apply (X : FVec Ideal S128x1024 .f32) (I : IVec S16x64 32) (x2 x3 : Vec Ideal S16x64x64 .f32)
    (hw : ∀ rr s, (I (ix2 rr s)).toNat < 1024) (b : Fin 128) (rr : Fin 16) (d : Fin 64)
    (c : Fin 8) (o : Nat) (ho : o = 8 * c.val) (hS : S128x16x64.Slices ![0, 0, o] S128x16x8)
    (inb : ∀ a, (![0, o, 0] : Fin 3 → Nat) a + S16x8x64.size a ≤ S16x64x64.size a) :
    chunk (F := Ideal) (extractStridedSlice S128x16x8 ![0, 0, o] (k0_pay1 (F := Ideal) X I) hS)
        (View.ld x2 (Rect.unit (s := S16x64x64) ![0, o, 0] S16x8x64.size inb))
        (View.ld x3 (Rect.unit (s := S16x64x64) ![0, o, 0] S16x8x64.size inb)) (ix3 b rr d)
      = ∑ k : Fin 8, (fun s : Fin 64 => term (X (ix2 b ⟨(I (ix2 rr s)).toNat, hw rr s⟩)) (x2 (ix3 rr s d)) (x3 (ix3 rr s d)))
          ⟨8 * c.val + k.val, by have := c.isLt; have := k.isLt; omega⟩ := by
  refine (chunk_apply _ _ _ b rr d).trans ?_
  refine Finset.sum_congr rfl fun k _ => ?_
  have hs : (⟨8 * c.val + k.val, by have := c.isLt; have := k.isLt; omega⟩ : Fin 64).val = o + k.val := by
    show 8 * c.val + k.val = o + k.val
    omega
  rw [slots_apply _ o hS b rr k _ hs]
  exact congr (congr (congrArg term (Select.sel_apply X I b rr _ (hw rr _))) (par_ld x2 o inb rr k d _ hs))
    (par_ld x3 o inb rr k d _ hs)

/-! ## The block -/

theorem hz2 : (![0, 0] : Fin 2 → Nat) = fun _ => 0 := funext fun a => by fin_cases a <;> rfl
theorem hz3 : (![0, 0, 0] : Fin 3 → Nat) = fun _ => 0 := funext fun a => by fin_cases a <;> rfl

/-- THE BLOCK AT `(b, r, d)`: the sum over the 64 slots of the log density of the selected feature. -/
theorem block_apply (x0 : Vec Ideal S16x64 .i32) (x1 : Vec Ideal S128x1024 .f32) (x2 x3 : Vec Ideal S16x64x64 .f32)
    (hw : ∀ rr s, (x0 (ix2 rr s)).toNat < 1024) (b : Fin 128) (rr : Fin 16) (d : Fin 64) :
    out0_4 (F := Ideal) x0 x1 x2 x3 (ix3 b rr d)
      = ∑ s : Fin 64, term (x1 (ix2 b ⟨(x0 (ix2 rr s)).toNat, hw rr s⟩)) (x2 (ix3 rr s d)) (x3 (ix3 rr s d)) := by
  rw [out0_4_eq, View.canon_unit_zero hz3]
  simp only [View.ld_unit_zero (S := S128x1024) hz2, View.ld_unit_zero (S := S16x64) hz2]
  unfold total
  simp only [addf_apply]
  rw [sum_64_as_8x8, ← acc8]
  show Ideal.ofBits .f32 0x00000000#32 + _ + _ + _ + _ + _ + _ + _ + _ = _
  rw [Ideal.ofBits_zero_f32,
    group_apply x1 x0 x2 x3 hw b rr d (0 : Fin 8) 0 rfl slices_S128x16x64_o0_0_0_S128x16x8 inb_S16x64x64_S16x8x64_0_0_0,
    group_apply x1 x0 x2 x3 hw b rr d (1 : Fin 8) 8 rfl slices_S128x16x64_o0_0_8_S128x16x8 inb_S16x64x64_S16x8x64_0_8_0,
    group_apply x1 x0 x2 x3 hw b rr d (2 : Fin 8) 16 rfl slices_S128x16x64_o0_0_16_S128x16x8 inb_S16x64x64_S16x8x64_0_16_0,
    group_apply x1 x0 x2 x3 hw b rr d (3 : Fin 8) 24 rfl slices_S128x16x64_o0_0_24_S128x16x8 inb_S16x64x64_S16x8x64_0_24_0,
    group_apply x1 x0 x2 x3 hw b rr d (4 : Fin 8) 32 rfl slices_S128x16x64_o0_0_32_S128x16x8 inb_S16x64x64_S16x8x64_0_32_0,
    group_apply x1 x0 x2 x3 hw b rr d (5 : Fin 8) 40 rfl slices_S128x16x64_o0_0_40_S128x16x8 inb_S16x64x64_S16x8x64_0_40_0,
    group_apply x1 x0 x2 x3 hw b rr d (6 : Fin 8) 48 rfl slices_S128x16x64_o0_0_48_S128x16x8 inb_S16x64x64_S16x8x64_0_48_0,
    group_apply x1 x0 x2 x3 hw b rr d (7 : Fin 8) 56 rfl slices_S128x16x64_o0_0_56_S128x16x8 inb_S16x64x64_S16x8x64_0_56_0]

end Cert.KernelIdeal.Block

end
-- ==== Proof.KernelValue.lean ====
/-
  The kernel program's result array.

  Grid point `t` (of 8) handles regions `16t … 16t+15`: its index-word block is rows `16t …` of the table, its
  feature block is the whole feature array, its two parameter blocks are regions `16t …` of the mean and log standard
  deviation arrays, and it writes regions `16t …` of the `[128, 128, 64]` output. With every index word a column
  number, the block it writes is that block of the specification `G` of the whole argument arrays; the eight blocks
  tile the output, so the output array ends as `G`; the host then reshapes it to `[8192, 2, 64]`.
-/
import proofs.«409370_j42176578847363_1_alg».proof.Proof.KernelAtIndex
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Cert.KernelIdeal.Block
open Idealize.ShloMosaic Idealize.ShloMosaic.TcCoe Idealize.SL.Sem Idealize.ShloMosaic.ValueIdx
open Idealize.ShloMosaic.ColGatherGrid Cert.Spec
open Idealize.ShloMosaic.Pipeline (Dat)

variable (m : (ℓ : Loc nD τ sig) → Buf (Elt Ideal) ℓ) (ρ : Dev nD → PrngReg)

/-! ## The index maps over the grid -/

theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = 0 ∧ win0_1.index t (1 : Fin 2) = 0 :=
  (by decide +kernel : ∀ t : Fin grid0.N, _)
theorem idx_facts2 : ∀ t : Fin cfg0.N, win0_2.index t (0 : Fin 3) = t.val ∧ win0_2.index t (1 : Fin 3) = 0
    ∧ win0_2.index t (2 : Fin 3) = 0 :=
  (by decide +kernel : ∀ t : Fin grid0.N, _)
theorem idx_facts3 : ∀ t : Fin cfg0.N, win0_3.index t (0 : Fin 3) = t.val ∧ win0_3.index t (1 : Fin 3) = 0
    ∧ win0_3.index t (2 : Fin 3) = 0 :=
  (by decide +kernel : ∀ t : Fin grid0.N, _)
theorem idx_facts4 : ∀ t : Fin cfg0.N, win0_4.index t (0 : Fin 3) = 0 ∧ win0_4.index t (1 : Fin 3) = t.val
    ∧ win0_4.index t (2 : Fin 3) = 0 :=
  (by decide +kernel : ∀ t : Fin grid0.N, _)

/-! ## The input blocks at a point, read off the arrays -/

/-- The four input blocks at point `t`, at their literal types. -/
abbrev wordsAt (c : Dev nD) (t : Fin cfg0.N) : Vec Ideal S16x64 .i32 := iblk m c 0 t
abbrev featsAt (c : Dev nD) (t : Fin cfg0.N) : Vec Ideal S128x1024 .f32 := iblk m c 1 t
abbrev meansAt (c : Dev nD) (t : Fin cfg0.N) : Vec Ideal S16x64x64 .f32 := iblk m c 2 t
abbrev lsigAt (c : Dev nD) (t : Fin cfg0.N) : Vec Ideal S16x64x64 .f32 := iblk m c 3 t

theorem wordsAt_apply (c : Dev nD) (t : Fin cfg0.N) (rr : Fin 16) (s : Fin 64) (r : Fin 128) (hr : r.val = 16 * t.val + rr.val) :
    wordsAt m c t (ix2 rr s) = V m c main_arg1 (ix2 r s) := by
  obtain ⟨e0, e1⟩ := idx_facts0 t
  show V m c main_arg1 (((cfg0.win 0).blk t).view.emb (ix2 rr s)) = V m c main_arg1 (ix2 r s)
  refine congrArg _ (funext fun a => Fin.ext ?_)
  match a with
  | ⟨0, _⟩ => show win0_0.index t (0 : Fin 2) * 16 + 1 * rr.val = r.val; omega
  | ⟨1, _⟩ => show win0_0.index t (1 : Fin 2) * 64 + 1 * s.val = s.val; omega

theorem featsAt_apply (c : Dev nD) (t : Fin cfg0.N) (b : Fin 128) (f : Fin 1024) :
    featsAt m c t (ix2 b f) = V m c main_arg0 (ix2 b f) := by
  obtain ⟨e0, e1⟩ := idx_facts1 t
  show V m c main_arg0 (((cfg0.win 1).blk t).view.emb (ix2 b f)) = V m c main_arg0 (ix2 b f)
  refine congrArg _ (funext fun a => Fin.ext ?_)
  match a with
  | ⟨0, _⟩ => show win0_1.index t (0 : Fin 2) * 128 + 1 * b.val = b.val; omega
  | ⟨1, _⟩ => show win0_1.index t (1 : Fin 2) * 1024 + 1 * f.val = f.val; omega

theorem meansAt_apply (c : Dev nD) (t : Fin cfg0.N) (rr : Fin 16) (s : Fin 64) (d : Fin 64) (r : Fin 128)
    (hr : r.val = 16 * t.val + rr.val) : meansAt m c t (ix3 rr s d) = V m c main_arg2 (ix3 r s d) := by
  obtain ⟨e0, e1, e2⟩ := idx_facts2 t
  show V m c main_arg2 (((cfg0.win 2).blk t).view.emb (ix3 rr s d)) = V m c main_arg2 (ix3 r s d)
  refine congrArg _ (funext fun a => Fin.ext ?_)
  match a with
  | ⟨0, _⟩ => show win0_2.index t (0 : Fin 3) * 16 + 1 * rr.val = r.val; omega
  | ⟨1, _⟩ => show win0_2.index t (1 : Fin 3) * 64 + 1 * s.val = s.val; omega
  | ⟨2, _⟩ => show win0_2.index t (2 : Fin 3) * 64 + 1 * d.val = d.val; omega

theorem lsigAt_apply (c : Dev nD) (t : Fin cfg0.N) (rr : Fin 16) (s : Fin 64) (d : Fin 64) (r : Fin 128)
    (hr : r.val = 16 * t.val + rr.val) : lsigAt m c t (ix3 rr s d) = V m c main_arg3 (ix3 r s d) := by
  obtain ⟨e0, e1, e2⟩ := idx_facts3 t
  show V m c main_arg3 (((cfg0.win 3).blk t).view.emb (ix3 rr s d)) = V m c main_arg3 (ix3 r s d)
  refine congrArg _ (funext fun a => Fin.ext ?_)
  match a with
  | ⟨0, _⟩ => show win0_3.index t (0 : Fin 3) * 16 + 1 * rr.val = r.val; omega
  | ⟨1, _⟩ => show win0_3.index t (1 : Fin 3) * 64 + 1 * s.val = s.val; omega
  | ⟨2, _⟩ => show win0_3.index t (2 : Fin 3) * 64 + 1 * d.val = d.val; omega

/-! ## What a point writes back -/

/-- The specification of the arrays as the region finds them. -/
abbrev Gof (c : Dev nD) : S128x128x64.Idx → Elt Ideal .f32 :=
  G (V m c main_arg0) (V m c main_arg1) (V m c main_arg2) (V m c main_arg3)

/-- WHAT POINT `t` WRITES BACK is block `t` of the specification. -/
theorem flushed_eq (c : Dev nD) (hI : InRange (V m c main_arg1)) (t : Fin cfg0.N) :
    (dats m 0 c).flushed 4 t = ((cfg0.win 4).blk t).view.read (Elt Ideal) (Gof m c) := by
  show (cfg0.win 4).cut (grid0.coords t) ((dats m 0 c).after 4 t) = _
  rw [after0_4]
  obtain ⟨e0, e1, e2⟩ := idx_facts4 t
  have ht : t.val < 8 := t.isLt
  funext j
  obtain ⟨b, rr, d, rfl⟩ : ∃ (b : Fin 128) (rr : Fin 16) (d : Fin 64), j = ix3 b rr d := ⟨j 0, j 1, j 2, eq_ix3 j⟩
  have hrl : 16 * t.val + rr.val < 128 := by have := rr.isLt; omega
  have hw : ∀ (rr : Fin 16) (s : Fin 64), (wordsAt m c t (ix2 rr s)).toNat < 1024 := fun rr s => by
    rw [wordsAt_apply m c t rr s ⟨16 * t.val + rr.val, by have := rr.isLt; omega⟩ rfl]
    exact (toNat_of_range _ 1024 (by decide) (hI _ s).1 (hI _ s).2).1
  show out0_4 (F := Ideal) (wordsAt m c t) (featsAt m c t) (meansAt m c t) (lsigAt m c t) (ix3 b rr d)
    = Gof m c (((cfg0.win 4).blk t).view.emb (ix3 b rr d))
  refine (block_apply (wordsAt m c t) (featsAt m c t) (meansAt m c t) (lsigAt m c t) hw b rr d).trans ?_
  have hemb : ((cfg0.win 4).blk t).view.emb (ix3 b rr d) = ix3 b (⟨16 * t.val + rr.val, hrl⟩ : Fin 128) d := by
    funext a
    refine Fin.ext ?_
    match a with
    | ⟨0, _⟩ => show win0_4.index t (0 : Fin 3) * 128 + 1 * b.val = b.val; omega
    | ⟨1, _⟩ => show win0_4.index t (1 : Fin 3) * 16 + 1 * rr.val = 16 * t.val + rr.val; omega
    | ⟨2, _⟩ => show win0_4.index t (2 : Fin 3) * 64 + 1 * d.val = d.val; omega
  rw [hemb]
  show _ = Gat (V m c main_arg0) (V m c main_arg1) (V m c main_arg2) (V m c main_arg3) b ⟨16 * t.val + rr.val, hrl⟩ d
  unfold Gat
  refine Finset.sum_congr rfl fun s _ => ?_
  obtain ⟨hlt, hcol⟩ := col_of_range (V m c main_arg1) ⟨16 * t.val + rr.val, hrl⟩ s (hI _ s).1 (hI _ s).2
  rw [hcol]
  have hword := wordsAt_apply m c t rr s ⟨16 * t.val + rr.val, hrl⟩ rfl
  refine congr (congr (congrArg term ?_) (meansAt_apply m c t rr s d _ rfl)) (lsigAt_apply m c t rr s d _ rfl)
  rw [featsAt_apply]
  exact congrArg (fun f => V m c main_arg0 (ix2 b f)) (Fin.ext (congrArg BitVec.toNat hword))

/-! ## The blocks tile the output -/

theorem mem_blk (t : Fin cfg0.N) (i : S128x128x64.Idx) :
    i ∈ ((cfg0.win 4).blk t).view.set ↔ ∀ a : Fin 3, win0_4.index t a * S128x16x64.size a ≤ (i a).val
      ∧ (i a).val < win0_4.index t a * S128x16x64.size a + S128x16x64.size a := by
  show i ∈ ((View.whole main_v0).slice (win0_4.rect t)).set ↔ _
  rw [View.set_slice_whole, Rect.mem_set_unit]
  exact Iff.rfl

/-- Every index of the output is in the block of the point its region belongs to. -/
theorem covered (i : S128x128x64.Idx) :
    ∃ t : Fin cfg0.N, (cfg0.win 4).flush t = true ∧ i ∈ ((cfg0.win 4).blk t).view.set := by
  have h0 : (i 0).val < 128 := (i 0).isLt
  have h1 : (i 1).val < 128 := (i 1).isLt
  have h2 : (i 2).val < 64 := (i 2).isLt
  have hq : (i 1).val / 16 < 8 := by omega
  obtain ⟨e0, e1, e2⟩ := idx_facts4 ⟨(i 1).val / 16, hq⟩
  refine ⟨⟨(i 1).val / 16, hq⟩, flush0_4 _, ?_⟩
  rw [mem_blk]
  intro a
  match a with
  | ⟨0, _⟩ =>
    show win0_4.index ⟨(i 1).val / 16, hq⟩ (0 : Fin 3) * 128 ≤ (i 0).val
      ∧ (i 0).val < win0_4.index ⟨(i 1).val / 16, hq⟩ (0 : Fin 3) * 128 + 128
    omega
  | ⟨1, _⟩ =>
    show win0_4.index ⟨(i 1).val / 16, hq⟩ (1 : Fin 3) * 16 ≤ (i 1).val
      ∧ (i 1).val < win0_4.index ⟨(i 1).val / 16, hq⟩ (1 : Fin 3) * 16 + 16
    rw [e1]
    show (i 1).val / 16 * 16 ≤ (i 1).val ∧ (i 1).val < (i 1).val / 16 * 16 + 16
    omega
  | ⟨2, _⟩ =>
    show win0_4.index ⟨(i 1).val / 16, hq⟩ (2 : Fin 3) * 64 ≤ (i 2).val
      ∧ (i 2).val < win0_4.index ⟨(i 1).val / 16, hq⟩ (2 : Fin 3) * 64 + 64
    omega

/-- THE OUTPUT ARRAY after the region is the specification. -/
theorem final (c : Dev nD) (hI : InRange (V m c main_arg1)) : (dats m 0 c).arrAt 4 cfg0.N = Gof m c :=
  (dats m 0 c).arrAt_eq_of_cover 4 (Gof m c) (fun t _ => flushed_eq m c hI t) covered

end Cert.KernelIdeal.KValue

end
-- ==== Proof.KernelRun.lean ====
/-
  The kernel program's run, with its result named.

  After the region the host reshapes the `[128, 128, 64]` output array to `[8192, 2, 64]`. With every index word a
  feature column, every weakly fair execution ends with the result buffer at the specification `G` of the argument
  arrays, reshaped, and the four argument arrays unchanged.
-/
import proofs.«409370_j42176578847363_1_alg».proof.Proof.KernelValue
import Idealize.ShloMosaic.Lib.StableHlo.Run

set_option maxRecDepth 16384

noncomputable section

namespace Cert.KernelIdeal.KValue

open Cert.KernelIdeal Cert.KernelIdeal.Gen Cert.KernelIdeal.Block
open Idealize.ShloMosaic Idealize.ShloMosaic.TcCoe Idealize.SL.Sem Idealize.ShloMosaic.ValueIdx
open Cert.Spec Idealize.ShloMosaic.StableHlo

variable (m : (ℓ : Loc nD τ sig) → Buf (Elt Ideal) ℓ) (ρ : Dev nD → PrngReg)

/-- The host's reshape of the region's output array is the reshaped specification. -/
theorem tail_eq (c : Dev nD) (hI : InRange (V m c main_arg1)) :
    Pipeline.afterTail₀ cfgs (dats m) 0 (V0 m) [hostOps1] c main_v1
      = shapeCast S8192x2x64 (Gof m c) shapeCasts_S128x128x64_S8192x2x64 := by
  unfold Pipeline.afterTail₀
  show StableHlo.after hostOps1 _ (Proc.devRef .tc main_v1) = _
  after_results
  have hA : Pipeline.withArrays (cfgs 0).spec c (V0 m c) (fun w => (dats m 0 c).arrAt w (cfgs 0).N)
      (Proc.tc.devRef main_v0) = Gof m c :=
    (Pipeline.withArrays_arr spec0 launch0.win.arr_inj c _ _ 4).trans (final m c hI)
  funext i
  exact congrFun (congrArg (fun A => shapeCast S8192x2x64 A shapeCasts_S128x128x64_S8192x2x64) hA) i

/-- The result buffer is no array of the pipeline. -/
theorem result_mem_rest : main_v1 ∈ Pipeline.restRefs sig (cfgs 0).spec :=
  Pipeline.mem_restRefs_of main_v1 rfl (fun w => by fin_cases w <;> decide)

/-- THE RUN: the result at the reshaped specification, the arguments unchanged. -/
theorem run (hI : ∀ c : Dev nD, InRange (m ((c.tc : Thread nD τ).loc main_arg1))) :
    θ_run defs (onTc (τ := τ) (main (F := Ideal))) ⟨m, fun _ => 0, ρ⟩ fun r => ∀ c : Dev nD,
      r.2.mem ((c.tc : Thread nD τ).loc main_v1)
          = shapeCast S8192x2x64 (G (m ((c.tc : Thread nD τ).loc main_arg0)) (m ((c.tc : Thread nD τ).loc main_arg1))
              (m ((c.tc : Thread nD τ).loc main_arg2)) (m ((c.tc : Thread nD τ).loc main_arg3))) shapeCasts_S128x128x64_S8192x2x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).2 main_v1 result_mem_rest).trans (tail_eq m c (hI c)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KValue

end
-- ==== Proof.RefValue.lean ====
/-
  The reference's result is the specification.

  The reference wraps each index word (a negative word has 1024 added), gathers the named feature column for every
  batch row, region and slot (the gather clamps the word into [0, 1023]), forms the Gaussian log density of the
  gathered feature with the slot's mean and log standard deviation, sums over the 64 slots from an initial zero,
  and reshapes `[128, 128, 64]` to `[8192, 2, 64]`. Read index by index this is `Spec.G`, reshaped.
-/
import proofs.«409370_j42176578847363_1_alg».proof.Proof.Gen.ReferenceIdeal.Read
import proofs.«409370_j42176578847363_1_alg».proof.Proof.Spec
import proofs.«409370_j42176578847363_1_alg».proof.Proof.LibGatherColsGrid
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.ColGatherGrid Cert.Spec

/-- The gathered feature at `(b, r, s)`: column `col idx r s` of row `b`. -/
theorem gathered_apply (x0 : (⟨S128x1024, .f32⟩ : BufTy).Contents (Elt Ideal)) (x1 : (⟨S128x64, .i32⟩ : BufTy).Contents (Elt Ideal))
    (b : Fin 128) (r : Fin 128) (s : Fin 64) :
    val_main_v6 (F := Ideal) x0 x1 (ix3 b r s) = x0 (ix2 b (col x1 r s)) := by
  unfold val_main_v6
  refine (gather_colGrid_apply (C := 128) (N := 1024) (R := 128) (S := 64) (by decide)
    gather_S128x1024_S128x64x1_S128x128x64_0_1_n_n_1_2_1281_wf x0 (val_main_v5 (F := Ideal) x1) b r s).trans ?_
  have e5 : idx_main_v5 (ix3 r s (0 : Fin 1)) = ix2 r s := by
    funext a
    refine Fin.ext ?_
    match a with
    | ⟨0, _⟩ => rfl
    | ⟨1, _⟩ => rfl
  rw [val_main_v5_apply, e5, val_main_v4_apply, val_main_v1_apply, val_main_v3_apply, val_main_v0_apply, val_main_v2_apply]
  rfl

/-- The 64-slot sum is the specification, index by index. -/
theorem sum_eq (x0 : (⟨S128x1024, .f32⟩ : BufTy).Contents (Elt Ideal)) (x1 : (⟨S128x64, .i32⟩ : BufTy).Contents (Elt Ideal))
    (x2 x3 : (⟨S128x64x64, .f32⟩ : BufTy).Contents (Elt Ideal)) :
    val_main_v25 (F := Ideal) x0 x1 x2 x3 = G x0 x1 x2 x3 := by
  funext j
  obtain ⟨b, r, d, rfl⟩ : ∃ (b : Fin 128) (r : Fin 128) (d : Fin 64), j = ix3 b r d := ⟨j 0, j 1, j 2, eq_ix3 j⟩
  rw [val_main_v25_apply, G_ix3]
  unfold Gat
  rw [val_main_cst_2_apply]
  show Ideal.ofBits .f32 0x00000000#32 + _ = _
  rw [Ideal.ofBits_zero_f32, zero_add]
  refine Finset.sum_congr rfl fun s _ => ?_
  have hi : idx_main_v25 (ix3 b r d) s = ix4 b r s d := by
    funext a
    refine Fin.ext ?_
    match a with
    | ⟨0, _⟩ => rfl
    | ⟨1, _⟩ => rfl
    | ⟨2, _⟩ => rfl
    | ⟨3, _⟩ => rfl
  rw [hi, val_main_v24_apply, val_main_v22_apply, val_main_v19_apply, val_main_v17_apply, val_main_v16_apply,
    val_main_v13_apply, val_main_v11_apply, val_main_v9_apply, val_main_v12_apply, val_main_v10_apply,
    val_main_v15_apply, val_main_v14_apply, val_main_v8_apply, val_main_v7_apply, val_main_v21_apply,
    val_main_v20_apply, val_main_v18_apply, val_main_cst_apply, val_main_v23_apply, val_main_cst_1_apply]
  have e6 : idx_main_v9 (idx_main_v11 (ix4 b r s d)) = ix3 b r s := by
    funext a
    refine Fin.ext ?_
    match a with
    | ⟨0, _⟩ => rfl
    | ⟨1, _⟩ => rfl
    | ⟨2, _⟩ => rfl
  have e2 : idx_main_v10 (idx_main_v12 (ix4 b r s d)) = ix3 r s d := by
    funext a
    refine Fin.ext ?_
    match a with
    | ⟨0, _⟩ => rfl
    | ⟨1, _⟩ => rfl
    | ⟨2, _⟩ => rfl
  have e8 : idx_main_v14 (idx_main_v15 (ix4 b r s d)) = ix3 r s d := by
    funext a
    refine Fin.ext ?_
    match a with
    | ⟨0, _⟩ => rfl
    | ⟨1, _⟩ => rfl
    | ⟨2, _⟩ => rfl
  have e3 : idx_main_v20 (idx_main_v21 (ix4 b r s d)) = ix3 r s d := by
    funext a
    refine Fin.ext ?_
    match a with
    | ⟨0, _⟩ => rfl
    | ⟨1, _⟩ => rfl
    | ⟨2, _⟩ => rfl
  rw [e6, e2, e8, e3, gathered_apply]
  rfl

/-- The reference's result array. -/
theorem result_eq (x0 : (⟨S128x1024, .f32⟩ : BufTy).Contents (Elt Ideal)) (x1 : (⟨S128x64, .i32⟩ : BufTy).Contents (Elt Ideal))
    (x2 x3 : (⟨S128x64x64, .f32⟩ : BufTy).Contents (Elt Ideal)) :
    val_main_v26 (F := Ideal) x0 x1 x2 x3 = shapeCast S8192x2x64 (G x0 x1 x2 x3) shapeCasts_S128x128x64_S8192x2x64 := by
  unfold val_main_v26
  rw [sum_eq]

end Cert.ReferenceIdeal.RefValue

end
-- ==== Proof.PreRange.lean ====
/-
  The precondition gives the index range.

  The stated precondition is a conjunction of five "all elements" tests: the three float inputs finite, and every
  index word non-negative and below 1024 (signed comparisons). Each "all" is an and-reduction to a single bit; that
  bit being 1 gives the test at every element.
-/
import proofs.«409370_j42176578847363_1_alg».proof.Defs
import proofs.«409370_j42176578847363_1_alg».proof.Proof.Spec
import Idealize.ShloMosaic.Lib.ReduceAll
import Idealize.ShloMosaic.Lib.Affine
import Idealize.ShloMosaic.Lib.ValueIdx

noncomputable section

namespace Cert.PreRange

open Idealize.ShloMosaic Idealize.ShloMosaic.ValueIdx Cert.Spec

instance : Subsingleton Cert.Pre_finite_inputs.S_.Idx := ⟨fun a b => funext fun d => d.elim0⟩

/-- Where the precondition's bit is 1, every index word is in `[0, 1024)`. -/
theorem inRange_of_fn {F : FTy → Type} [FloatOps F] [Cert.Pre_finite_inputs.Facts]
    (a0 : FVec F Cert.Pre_finite_inputs.S128x1024 .f32) (a1 : IVec Cert.Pre_finite_inputs.S128x64 32)
    (a2 a3 : FVec F Cert.Pre_finite_inputs.S128x64x64 .f32)
    (h : Cert.Pre_finite_inputs.fn (F := F) a0 a1 a2 a3 = fun _ => 1#1) : InRange a1 := by
  have e := congrFun h ix0
  unfold Cert.Pre_finite_inputs.fn Cert.Pre_finite_inputs.fn_part1 at e
  dsimp only at e
  simp only [andi, IntOp.andi_eq_one] at e
  intro r s
  exact ⟨Host.reduce_andi_all _ _ _ _ ix0 e.1.2 (ix2 r s), Host.reduce_andi_all _ _ _ _ ix0 e.2 (ix2 r s)⟩

end Cert.PreRange

end
-- ==== Proof.lean ====
/-
  A Gaussian log-density layer over gathered features: the kernel against its array-language reference.

  Inputs: features `x : [128, 1024]`, a table of feature indices `idx : [128, 64]` (64 slots for each of 128
  regions), means `mu` and log standard deviations `ls`, both `[128, 64, 64]`. The result at batch row `b`, region
  `r`, distribution `d` is the sum over the region's slots `s` of
      −½ · ((x[b, idx[r,s]] − mu[r,s,d]) · e^(−ls[r,s,d]))² − ls[r,s,d] − ½·log 2π,
  delivered reshaped from `[128, 128, 64]` to `[8192, 2, 64]`.

  The reference gathers `x[:, idx]` (a negative index word wraps, the gather clamps) and sums over all 64 slots. The
  kernel handles 16 regions per grid point; it selects the features by multiplying `x` with a 0/1 matrix that has,
  for each (region, slot), a single 1 in the column equal to the index word, and accumulates the slot sum in 8 groups
  of 8. On the extended reals the selection's row sum has one surviving term exactly when the index word is a column
  number; the stated precondition says it is (`0 ≤ idx < 1024`), and then the selected feature is the gathered one.
  Regrouping a finite sum changes nothing, the two negations `0 − ls` and `−ls` agree, and both programs carry the
  same two constants, so the two results are one function of the arguments (`Spec.G`, reshaped).

  The three frames are the generated ones (the reference's is its generated run with the result dropped); the
  idealization rewrote nothing, so `preserves` is trivial.
-/
import proofs.«409370_j42176578847363_1_alg».proof.Defs
import proofs.«409370_j42176578847363_1_alg».proof.Proof.Gen.Kernel
import proofs.«409370_j42176578847363_1_alg».proof.Proof.Gen.Kernel.Skeleton
import proofs.«409370_j42176578847363_1_alg».proof.Proof.Gen.Kernel.Launch
import proofs.«409370_j42176578847363_1_alg».proof.Proof.Gen.Kernel.Points
import proofs.«409370_j42176578847363_1_alg».proof.Proof.Gen.Kernel.Frame
import proofs.«409370_j42176578847363_1_alg».proof.Proof.Gen.KernelIdeal
import proofs.«409370_j42176578847363_1_alg».proof.Proof.Gen.KernelIdeal.Skeleton
import proofs.«409370_j42176578847363_1_alg».proof.Proof.Gen.KernelIdeal.Launch
import proofs.«409370_j42176578847363_1_alg».proof.Proof.Gen.KernelIdeal.Points
import proofs.«409370_j42176578847363_1_alg».proof.Proof.Gen.KernelIdeal.Frame
import proofs.«409370_j42176578847363_1_alg».proof.Proof.Gen.ReferenceIdeal
import proofs.«409370_j42176578847363_1_alg».proof.Proof.Gen.ReferenceIdeal.Run
import proofs.«409370_j42176578847363_1_alg».proof.Proof.Gen.ReferenceIdeal.Read
import proofs.«409370_j42176578847363_1_alg».proof.Proof.Gen.Pre_finite_inputs
import proofs.«409370_j42176578847363_1_alg».proof.Proof.KernelRun
import proofs.«409370_j42176578847363_1_alg».proof.Proof.RefValue
import proofs.«409370_j42176578847363_1_alg».proof.Proof.PreRange
import Idealize.ShloMosaic.Adequacy
import Idealize.ShloMosaic.Init

noncomputable section

namespace Cert.Proof

open Idealize.ShloMosaic Idealize.SL.Sem Cert.Kernel

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- Both programs end with the reshaped specification of the (agreeing) arguments. -/
theorem algebraic : Cert.algebraic_KernelIdeal_ReferenceIdeal := by
  intro m ρ m' ρ' hpre hagree
  have hI : ∀ c : Dev Cert.KernelIdeal.nD, Cert.Spec.InRange (m ((c.tc : Thread Cert.KernelIdeal.nD Cert.KernelIdeal.τ).loc Cert.KernelIdeal.main_arg1)) :=
    fun c => Cert.PreRange.inRange_of_fn _ _ _ _ (hpre c)
  refine ⟨fun c => shapeCast Cert.KernelIdeal.S8192x2x64
      (Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      Cert.KernelIdeal.Gen.shapeCasts_S128x128x64_S8192x2x64, Cert.KernelIdeal.KValue.run m ρ hI, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v26_eq _ _ _ _).trans ?_
  rw [Cert.ReferenceIdeal.RefValue.result_eq, (hagree c).1, (hagree c).2.1, (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
